-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S32x256 : Shape := ⟨2, ![32, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S8192x256 .f32) (main_arg1 : FVec F S32x256 .f32) (main_arg2 : FVec F S32x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  main_v13
-- ==== Kernel.lean ====
abbrev S8192x256 : Shape := ⟨2, ![8192, 256]⟩
abbrev S32x256 : Shape := ⟨2, ![32, 256]⟩
abbrev S2x32x256 : Shape := ⟨3, ![2, 32, 256]⟩
abbrev S256x256 : Shape := ⟨2, ![256, 256]⟩
abbrev S256x1x256 : Shape := ⟨3, ![256, 1, 256]⟩
abbrev S1x32x256 : Shape := ⟨3, ![1, 32, 256]⟩
abbrev S256x32x256 : Shape := ⟨3, ![256, 32, 256]⟩
abbrev S256x32 : Shape := ⟨2, ![256, 32]⟩
abbrev S256 : Shape := ⟨1, ![256]⟩
abbrev S256x1 : Shape := ⟨2, ![256, 1]⟩
abbrev S256x32x1 : Shape := ⟨3, ![256, 32, 1]⟩
abbrev S16384 : Shape := ⟨1, ![16384]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S32x256, .f32⟩
  | .hbm, ⟨2, _⟩ => ⟨S32x256, .f32⟩
  | .hbm, ⟨3, _⟩ => ⟨S2x32x256, .f32⟩
  | .hbm, ⟨4, _⟩ => ⟨S16384, .f32⟩
  | .local _ .vmem, ⟨0, _⟩ => ⟨S256x256, .f32⟩
  | .local _ .vmem, ⟨1, _⟩ => ⟨S256x256, .f32⟩
  | .local _ .vmem, ⟨2, _⟩ => ⟨S32x256, .f32⟩
  | .local _ .vmem, ⟨3, _⟩ => ⟨S32x256, .f32⟩
  | .local _ .vmem, ⟨4, _⟩ => ⟨S2x32x256, .f32⟩
  | .local _ .vmem, ⟨5, _⟩ => ⟨S2x32x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S2x32x256_S2x32x256_0_0_0 : ∀ a, (![0, 0, 0] : Fin 3 → Nat) a + S2x32x256.size a ≤ S2x32x256.size a
  h_S2x32x256 : 0 < S2x32x256.numel
  shapeCasts_S2x32x256_S2x32x256 : S2x32x256.ShapeCasts S2x32x256
  inb_S256x256_S256x256_0_0 : ∀ a, (![0, 0] : Fin 2 → Nat) a + S256x256.size a ≤ S256x256.size a
  h_S256x256 : 0 < S256x256.numel
  inb_S32x256_S32x256_0_0 : ∀ a, (![0, 0] : Fin 2 → Nat) a + S32x256.size a ≤ S32x256.size a
  h_S32x256 : 0 < S32x256.numel
  shapeCasts_S256x256_S256x1x256 : S256x256.ShapeCasts S256x1x256
  shapeCasts_S32x256_S1x32x256 : S32x256.ShapeCasts S1x32x256
  broadcasts_S256x1x256_S256x32x256 : S256x1x256.Broadcasts S256x32x256
  broadcasts_S1x32x256_S256x32x256 : S1x32x256.Broadcasts S256x32x256
  reduces_S256x32x256_S256x32 : S256x32x256.Reduces [2] S256x32
  reduces_S256x32_S256 : S256x32.Reduces [1] S256
  shapeCasts_S256_S256x1 : S256.ShapeCasts S256x1
  broadcasts_S256x1_S256x32 : S256x1.Broadcasts S256x32
  shapeCasts_S256x32_S256x32x1 : S256x32.ShapeCasts S256x32x1
  broadcasts_S256x32x1_S256x32x256 : S256x32x1.Broadcasts S256x32x256
  inb_S2x32x256_S1x32x256_0_0_0 : ∀ a, (![0, 0, 0] : Fin 3 → Nat) a + S1x32x256.size a ≤ S2x32x256.size a
  h_S1x32x256 : 0 < S1x32x256.numel
  shapeCasts_S1x32x256_S32x256 : S1x32x256.ShapeCasts S32x256
  reduces_S256x32x256_S32x256 : S256x32x256.Reduces [0] S32x256
  inb_S2x32x256_S1x32x256_1_0_0 : ∀ a, (![1, 0, 0] : Fin 3 → Nat) a + S1x32x256.size a ≤ S2x32x256.size a
  shapeCasts_S2x32x256_S16384 : S2x32x256.ShapeCasts S16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .f32 = 32 ∨ (Rect.block (s := S32x256) S32x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32x256.size a ≤ S2x32x256.size a
  hwx0_3 : ∀ i : grid0.Coords, EltTy.bits .f32 = 32 ∨ (Rect.block (s := S2x32x256) S2x32x256.size (cc0_transform_3 i) (hinb0_3 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x32x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S32x256 : Shape := ⟨2, ![32, 256]⟩
abbrev S1x32x256 : Shape := ⟨3, ![1, 32, 256]⟩
abbrev S8192x1x256 : Shape := ⟨3, ![8192, 1, 256]⟩
abbrev S8192x32x256 : Shape := ⟨3, ![8192, 32, 256]⟩
abbrev S_ : Shape := ⟨0, ![]⟩
abbrev S8192x32 : Shape := ⟨2, ![8192, 32]⟩
abbrev S8192 : Shape := ⟨1, ![8192]⟩
abbrev S8192x1 : Shape := ⟨2, ![8192, 1]⟩
abbrev S8192x32x1 : Shape := ⟨3, ![8192, 32, 1]⟩
abbrev S8192x8192 : Shape := ⟨2, ![8192, 8192]⟩
abbrev S8192x16384 : Shape := ⟨2, ![8192, 16384]⟩
abbrev S16384 : Shape := ⟨1, ![16384]⟩

abbrev nBuf : Space → Nat
  | .hbm => 50
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S32x256, .f32⟩
  | .hbm, ⟨2, _⟩ => ⟨S32x256, .f32⟩
  | .hbm, ⟨3, _⟩ => ⟨S1x32x256, .f32⟩
  | .hbm, ⟨4, _⟩ => ⟨S8192x1x256, .f32⟩
  | .hbm, ⟨5, _⟩ => ⟨S1x32x256, .f32⟩
  | .hbm, ⟨6, _⟩ => ⟨S8192x32x256, .f32⟩
  | .hbm, ⟨7, _⟩ => ⟨S8192x32x256, .f32⟩
  | .hbm, ⟨8, _⟩ => ⟨S8192x32x256, .f32⟩
  | .hbm, ⟨9, _⟩ => ⟨S8192x32x256, .f32⟩
  | .hbm, ⟨10, _⟩ => ⟨S8192x32x256, .f32⟩
  | .hbm, ⟨11, _⟩ => ⟨S8192x32x256, .f32⟩
  | .hbm, ⟨12, _⟩ => ⟨S_, .f32⟩
  | .hbm, ⟨13, _⟩ => ⟨S8192x32, .f32⟩
  | .hbm, ⟨14, _⟩ => ⟨S_, .f32⟩
  | .hbm, ⟨15, _⟩ => ⟨S8192x32, .f32⟩
  | .hbm, ⟨16, _⟩ => ⟨S8192x32, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x32, .f32⟩
  | .hbm, ⟨30, _⟩ => ⟨S8192x32, .f32⟩
  | .hbm, ⟨31, _⟩ => ⟨S_, .f32⟩
  | .hbm, ⟨32, _⟩ => ⟨S8192x32x256, .f32⟩
  | .hbm, ⟨33, _⟩ => ⟨S8192x32x256, .f32⟩
  | .hbm, ⟨34, _⟩ => ⟨S_, .f32⟩
  | .hbm, ⟨35, _⟩ => ⟨S8192x32x256, .f32⟩
  | .hbm, ⟨36, _⟩ => ⟨S8192x32x256, .f32⟩
  | .hbm, ⟨37, _⟩ => ⟨S8192x32x1, .f32⟩
  | .hbm, ⟨38, _⟩ => ⟨S8192x32x256, .f32⟩
  | .hbm, ⟨39, _⟩ => ⟨S8192x32x256, .f32⟩
  | .hbm, ⟨40, _⟩ => ⟨S8192x8192, .f32⟩
  | .hbm, ⟨41, _⟩ => ⟨S8192x32x256, .f32⟩
  | .hbm, ⟨42, _⟩ => ⟨S8192x32x256, .f32⟩
  | .hbm, ⟨43, _⟩ => ⟨S8192x8192, .f32⟩
  | .hbm, ⟨44, _⟩ => ⟨S8192x16384, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S32x256_S1x32x256_1_2 : S32x256.BroadcastsInDim S1x32x256 (![1, 2] : Fin 2 → Fin S1x32x256.rank)
  bcast_S8192x256_S8192x1x256_0_2 : S8192x256.BroadcastsInDim S8192x1x256 (![0, 2] : Fin 2 → Fin S8192x1x256.rank)
  bcast_S8192x1x256_S8192x32x256_0_1_2 : S8192x1x256.BroadcastsInDim S8192x32x256 (![0, 1, 2] : Fin 3 → Fin S8192x32x256.rank)
  bcast_S1x32x256_S8192x32x256_0_1_2 : S1x32x256.BroadcastsInDim S8192x32x256 (![0, 1, 2] : Fin 3 → Fin S8192x32x256.rank)
  reducesTo_S8192x32x256_S8192x32_d2 : S8192x32x256.ReducesTo [2] S8192x32
  h_S_ : 0 < S_.numel
  bcast_S_S8192x32 : S_.BroadcastsInDim S8192x32 (![] : Fin 0 → Fin S8192x32.rank)
  reducesTo_S8192x32_S8192_d1 : S8192x32.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S_S8192x32x256 : S_.BroadcastsInDim S8192x32x256 (![] : Fin 0 → Fin S8192x32x256.rank)
  bcast_S8192x32_S8192x32x1_0_1 : S8192x32.BroadcastsInDim S8192x32x1 (![0, 1] : Fin 2 → Fin S8192x32x1.rank)
  bcast_S8192x32x1_S8192x32x256_0_1_2 : S8192x32x1.BroadcastsInDim S8192x32x256 (![0, 1, 2] : Fin 3 → Fin S8192x32x256.rank)
  shapeCasts_S8192x32x256_S8192x8192 : S8192x32x256.ShapeCasts S8192x8192
  concatenates_S8192x8192_S8192x8192_S8192x16384_d1 : Shape.Concatenates [S8192x8192, S8192x8192] S8192x16384 1
  reducesTo_S8192x16384_S16384_d0 : S8192x16384.ReducesTo [0] S16384
  bcast_S_S16384 : S_.BroadcastsInDim S16384 (![] : Fin 0 → Fin S16384.rank)

variable [Facts₀]

class Facts : Prop extends Facts₀ where

variable [Facts]
-- ==== Proof.Spec.lean ====
/-
  The mathematics of the Fisher layer, free of any program.

  For one data row `xr : Fin 256 → EReal` and parameters `w, b : [32, 256]`:
    y1 k d   = w k d · (xr d + b k d)
    y2 k d   = y1 k d · y1 k d
    y4 k     = (-1/2) · Σ_d y2 k d
    rowMax   = max (-∞) (max_k y4 k)                    (the softmax's shift)
    ex k     = exp (y4 k - rowMax)
    gam k    = ex k / Σ_k' ex k'                        (the softmax over the 32 components)
    sigTerm k d = gam k · ((y2 k d - 1) · (1/√2 as f32))
    muTerm k d  = gam k · y1 k d
  The layer's result at flat index q = 8192·s + 256·k + d (s = 0: the sigma part, s = 1: the mu part) is the
  mean over the 8192 rows of that term.  One side of the certificate sums the rows tile by tile (32 tiles of
  256 rows) and multiplies by 2⁻¹³; the other sums all 8192 rows at once and divides by 8192.  On the extended
  reals a finite sum may be regrouped freely (addition is commutative and associative), and dividing by the
  real 8192 is multiplying by the real 1/8192 = 2⁻¹³ at every extended real: no finiteness is needed.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Fisher

open Idealize.ShloMosaic Idealize.ShloMosaic.ValueIdx

/-- The data array `[8192, 256]` and a parameter array `[32, 256]` at the ideal values. -/
abbrev XArr : Type := (⟨2, ![8192, 256]⟩ : Shape).Idx → EReal
abbrev WArr : Type := (⟨2, ![32, 256]⟩ : Shape).Idx → EReal

/-- Row `n` of the data array, the row number read modulo 8192 so that every natural number names a row. -/
def rowOf (X : XArr) (n : ℕ) : Fin 256 → EReal :=
  fun d => X (ix2 (⟨n % 8192, Nat.mod_lt _ (by norm_num)⟩ : Fin 8192) d)

theorem rowOf_fin (X : XArr) (n : Fin 8192) : rowOf X n.val = fun d => X (ix2 n d) := by
  funext d
  unfold rowOf
  have h : (⟨n.val % 8192, Nat.mod_lt _ (by norm_num)⟩ : Fin 8192) = n := Fin.ext (Nat.mod_eq_of_lt n.isLt)
  rw [h]

def y1 (xr : Fin 256 → EReal) (w b : WArr) (k : Fin 32) (d : Fin 256) : EReal :=
  w (ix2 k d) * (xr d + b (ix2 k d))

def y2 (xr : Fin 256 → EReal) (w b : WArr) (k : Fin 32) (d : Fin 256) : EReal :=
  y1 xr w b k d * y1 xr w b k d

def y4 (xr : Fin 256 → EReal) (w b : WArr) (k : Fin 32) : EReal :=
  Ideal.ofBits .f32 0xBF000000#32 * ∑ d : Fin 256, y2 xr w b k d

/-- The softmax's shift: the largest `y4` of the row, taken against `-∞` twice as both programs do. -/
def rowMax (xr : Fin 256 → EReal) (w b : WArr) : EReal :=
  max (Ideal.ofBits .f32 0xFF800000#32)
    ((Finset.univ : Finset (Fin 32)).fold max (Ideal.ofBits .f32 0xFF800000#32) (y4 xr w b))

def ex (xr : Fin 256 → EReal) (w b : WArr) (k : Fin 32) : EReal :=
  Ideal.exp (y4 xr w b k - rowMax xr w b)

def gam (xr : Fin 256 → EReal) (w b : WArr) (k : Fin 32) : EReal :=
  Ideal.div (ex xr w b k) (∑ k' : Fin 32, ex xr w b k')

def sigTerm (xr : Fin 256 → EReal) (w b : WArr) (k : Fin 32) (d : Fin 256) : EReal :=
  gam xr w b k * ((y2 xr w b k d - Ideal.ofBits .f32 0x3F800000#32) * Ideal.ofBits .f32 0x3F3504F3#32)

def muTerm (xr : Fin 256 → EReal) (w b : WArr) (k : Fin 32) (d : Fin 256) : EReal :=
  gam xr w b k * y1 xr w b k d

/-- The summand of part `s` (0: sigma, 1: mu). -/
def term (s : Fin 2) (xr : Fin 256 → EReal) (w b : WArr) (k : Fin 32) (d : Fin 256) : EReal :=
  if s.val = 0 then sigTerm xr w b k d else muTerm xr w b k d

/-- What tile `t` (rows 256·t … 256·t + 255) adds to the running sum at (s, k, d). -/
def tileSum (s : Fin 2) (X : XArr) (w b : WArr) (k : Fin 32) (d : Fin 256) (t : ℕ) : EReal :=
  ∑ r : Fin 256, term s (rowOf X (256 * t + r.val)) w b k d

/-- The running sum after tiles 0 … n. -/
def accTiles (s : Fin 2) (X : XArr) (w b : WArr) (k : Fin 32) (d : Fin 256) (n : ℕ) : EReal :=
  ∑ t ∈ Finset.range (n + 1), tileSum s X w b k d t

theorem accTiles_zero (s : Fin 2) (X : XArr) (w b : WArr) (k : Fin 32) (d : Fin 256) :
    accTiles s X w b k d 0 = tileSum s X w b k d 0 := by
  unfold accTiles; rw [Finset.sum_range_one]

theorem accTiles_succ (s : Fin 2) (X : XArr) (w b : WArr) (k : Fin 32) (d : Fin 256) (n : ℕ) :
    accTiles s X w b k d (n + 1) = accTiles s X w b k d n + tileSum s X w b k d (n + 1) := by
  unfold accTiles; rw [Finset.sum_range_succ]

/-- 8192 rows are 32 tiles of 256: a sum over the rows is the sum over the tiles of the sums inside them. -/
theorem sum_tiles (f : ℕ → EReal) :
    ∑ t ∈ Finset.range 32, ∑ r : Fin 256, f (256 * t + r.val) = ∑ n : Fin 8192, f n.val := by
  have h := Equiv.sum_comp (finProdFinEquiv (m := 32) (n := 256)) (fun n : Fin (32 * 256) => f n.val)
  rw [Fintype.sum_prod_type] at h
  rw [Finset.sum_range]
  refine Eq.trans ?_ h
  refine Finset.sum_congr rfl fun t _ => Finset.sum_congr rfl fun r _ => ?_
  congr 1
  simp only [finProdFinEquiv_apply_val]
  omega

theorem ofBits_8192 : Ideal.ofBits .f32 0x46000000#32 = ((8192 : ℝ) : EReal) := by
  simp [Ideal.ofBits, Ideal.ieee, -EReal.coe_mul]; norm_num

theorem ofBits_inv8192 : Ideal.ofBits .f32 0x39000000#32 = ((1 / 8192 : ℝ) : EReal) := by
  simp [Ideal.ofBits, Ideal.ieee, -EReal.coe_mul]; norm_num

/-- Dividing by 8192.0 is multiplying by 2⁻¹³, at every extended real. -/
theorem div_8192 (x : EReal) :
    Ideal.div x (Ideal.ofBits .f32 0x46000000#32) = x * Ideal.ofBits .f32 0x39000000#32 := by
  rw [ofBits_8192, ofBits_inv8192]
  exact Ideal.div_coe (by norm_num) x

/-- The result at flat index `q`: the tiles' running sum after the last tile, times 2⁻¹³. -/
def resultAt (X : XArr) (w b : WArr) (q : Fin 16384) : EReal :=
  accTiles ⟨q.val / 8192, by omega⟩ X w b ⟨q.val % 8192 / 256, by omega⟩ ⟨q.val % 256, by omega⟩ 31
    * Ideal.ofBits .f32 0x39000000#32

/-- The result array `[16384]`. -/
def result (X : XArr) (w b : WArr) : (⟨1, ![16384]⟩ : Shape).Idx → EReal :=
  fun j => resultAt X w b (j 0)

/-- The same as the mean over all 8192 rows at once: zero plus the sum over the rows, divided by 8192.0. -/
theorem resultAt_eq_mean (X : XArr) (w b : WArr) (q : Fin 16384) :
    resultAt X w b q
      = Ideal.div (Ideal.ofBits .f32 0x00000000#32
          + ∑ n : Fin 8192, term ⟨q.val / 8192, by omega⟩ (fun d' => X (ix2 n d')) w b
              ⟨q.val % 8192 / 256, by omega⟩ ⟨q.val % 256, by omega⟩)
        (Ideal.ofBits .f32 0x46000000#32) := by
  rw [div_8192, Ideal.ofBits_zero_f32, zero_add]
  unfold resultAt accTiles tileSum
  congr 1
  rw [sum_tiles (fun n => term _ (rowOf X n) w b _ _)]
  exact Finset.sum_congr rfl fun n _ => by rw [rowOf_fin]

end Cert.Fisher

end
-- ==== Proof.RefValue.lean ====
/-
  The reference's result, index by index, is the Fisher layer's specification.

  Two facts about arrays come first.  The maximum over the 32 components of a row is the fold of `max`, from the
  initial value, over that row's columns.  In the concatenation of two [8192, 8192] arrays along the columns, a
  column below 8192 is the first array's column and a column from 8192 on is the second array's, 8192 less.
  Then every stage of the reference, at explicit coordinates (row n, component k, feature d), is one function of
  the specification: w · (x + b), its square, minus half the sum of the squares, the row's largest such value,
  the shifted exponential, the softmax weight, and the two summands.  A reshape of [8192, 32, 256] to
  [8192, 8192] puts element (n, k, d) at column 256·k + d of row n, so column q of the concatenation is the
  summand of part q / 8192 at component q % 8192 / 256 and feature q % 256; the sum over the rows from zero,
  divided by 8192, is the specification's closed form.
-/
import proofs.«142013_j30846455119907_1_alg».proof.Proof.RefRead
import proofs.«142013_j30846455119907_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Cert.Fisher Idealize.ShloMosaic
  Idealize.ShloMosaic.ValueIdx

/-! ## The two operations read by hand, over any operands -/

theorem reduces_S8192x32_d1 : S8192x32.Reduces [1] S8192 := by decide

/-- The maximum over axis 1 of an [8192, 32] array, at row `n`: the fold of `max`, from the initial value, over
    the 32 columns of that row. -/
theorem reduceMax_apply (hT : S8192x32.ReducesTo [1] S8192) (hu : 0 < S_.numel)
    (y : S8192x32.Idx → EReal) (init : S_.Idx → EReal) (n : Fin 8192) :
    Host.reduce (FloatOps.maximumf (F := Ideal) (φ := .f32)) y init hT hu (ix1 n)
      = (Finset.univ : Finset (Fin 32)).fold max (init (Shape.Idx.first hu)) (fun k => y (ix2 n k)) := by
  rw [Host.reduce_eq_fold_single _ y init hT reduces_S8192x32_d1 hu (ix1 n)]
  have hl : (y ∘ reduces_S8192x32_d1.lift (ix1 n)) = fun k : Fin 32 => y (ix2 n k) := by
    funext k
    exact congrArg y (funext fun a => Fin.ext (by match a with | ⟨0, _⟩ => rfl | ⟨1, _⟩ => rfl))
  rw [hl]
  rfl

/-- A column below 8192 of the concatenation along axis 1 is that column of the first array. -/
theorem concat_left (hC : Shape.Concatenates [S8192x8192, S8192x8192] S8192x16384 1)
    (u v : S8192x8192.Idx → EReal) (n : Fin 8192) (q : Fin 16384) (c : Fin 8192) (hc : c.val = q.val) :
    concatenate S8192x16384 1 [⟨S8192x8192, u⟩, ⟨S8192x8192, v⟩] hC (ix2 n q) = u (ix2 n c) :=
  concatenate_pair_apply_left 1 u v hC _ rfl _ (fun b => by
    match b with
    | ⟨0, _⟩ => rfl
    | ⟨1, _⟩ => exact hc)

/-- A column from 8192 on is the second array's column, 8192 less. -/
theorem concat_right (hC : Shape.Concatenates [S8192x8192, S8192x8192] S8192x16384 1)
    (u v : S8192x8192.Idx → EReal) (n : Fin 8192) (q : Fin 16384) (c : Fin 8192) (hc : c.val + 8192 = q.val) :
    concatenate S8192x16384 1 [⟨S8192x8192, u⟩, ⟨S8192x8192, v⟩] hC (ix2 n q) = v (ix2 n c) :=
  concatenate_pair_apply_right 1 u v hC _ rfl rfl _
    (fun b hb => by
      match b with
      | ⟨0, _⟩ => rfl
      | ⟨1, _⟩ => exact absurd rfl hb)
    hc

/-! ## The stages at explicit coordinates -/

variable (x0 : (⟨S8192x256, .f32⟩ : BufTy).Contents (Elt Ideal))
  (x1 x2 : (⟨S32x256, .f32⟩ : BufTy).Contents (Elt Ideal))

/-- w · (x + b). -/
theorem v7_eq (n : Fin 8192) (k : Fin 32) (d : Fin 256) :
    val_main_v7 (F := Ideal) x0 x1 x2 (ix3 n k d) = y1 (fun d' => x0 (ix2 n d')) x1 x2 k d := by
  rw [val_main_v7_apply, val_main_v6_apply, val_main_v0_apply, val_main_v5_apply, val_main_v3_apply,
    val_main_v1_apply, val_main_v4_apply, val_main_v2_apply]
  have e0 : idx_main_v0 (idx_main_v6 (ix3 n k d)) = ix2 k d :=
    funext fun a => by match a with | ⟨0, _⟩ => rfl | ⟨1, _⟩ => rfl
  have e1 : idx_main_v1 (idx_main_v3 (ix3 n k d)) = ix2 n d :=
    funext fun a => by match a with | ⟨0, _⟩ => rfl | ⟨1, _⟩ => rfl
  have e2 : idx_main_v2 (idx_main_v4 (ix3 n k d)) = ix2 k d :=
    funext fun a => by match a with | ⟨0, _⟩ => rfl | ⟨1, _⟩ => rfl
  rw [e0, e1, e2]
  rfl

/-- Its square. -/
theorem v8_eq (n : Fin 8192) (k : Fin 32) (d : Fin 256) :
    val_main_v8 (F := Ideal) x0 x1 x2 (ix3 n k d) = y2 (fun d' => x0 (ix2 n d')) x1 x2 k d := by
  rw [val_main_v8_apply, v7_eq]
  rfl

/-- Minus a half times the sum of the squares over the features: the initial value of the sum is zero. -/
theorem v11_eq (n : Fin 8192) (k : Fin 32) :
    val_main_v11 (F := Ideal) x0 x1 x2 (ix2 n k) = y4 (fun d' => x0 (ix2 n d')) x1 x2 k := by
  rw [val_main_v11_apply, val_main_v10_apply, val_main_cst_0_apply, val_main_v9_apply, val_main_cst_apply]
  have e : ∀ d : Fin 256, idx_main_v9 (ix2 n k) d = ix3 n k d := fun d =>
    funext fun a => by match a with | ⟨0, _⟩ => rfl | ⟨1, _⟩ => rfl | ⟨2, _⟩ => rfl
  have hs : ∑ d : Fin 256, val_main_v8 (F := Ideal) x0 x1 x2 (idx_main_v9 (ix2 n k) d)
      = ∑ d : Fin 256, y2 (fun d' => x0 (ix2 n d')) x1 x2 k d :=
    Finset.sum_congr rfl fun d _ => by rw [e d, v8_eq]
  rw [hs]
  unfold y4
  simp only [Ideal.mulf_def, Ideal.ofBits_def, Ideal.ofBits_zero_f32, zero_add]

/-- The softmax's shift: the row's largest value, taken against -∞ twice. -/
theorem v14_eq (n : Fin 8192) :
    val_main_v14 (F := Ideal) x0 x1 x2 (ix1 n) = rowMax (fun d' => x0 (ix2 n d')) x1 x2 := by
  rw [val_main_v14_apply, val_main_v13_apply, val_main_cst_2_apply]
  unfold val_main_v12
  rw [reduceMax_apply, val_main_cst_1_apply]
  have hf : (fun k : Fin 32 => val_main_v11 (F := Ideal) x0 x1 x2 (ix2 n k))
      = y4 (fun d' => x0 (ix2 n d')) x1 x2 := funext fun k => v11_eq x0 x1 x2 n k
  rw [hf]
  rfl

/-- The exponential of the shifted value. -/
theorem v18_eq (n : Fin 8192) (k : Fin 32) :
    val_main_v18 (F := Ideal) x0 x1 x2 (ix2 n k) = ex (fun d' => x0 (ix2 n d')) x1 x2 k := by
  rw [val_main_v18_apply, val_main_v17_apply, val_main_v16_apply, val_main_v15_apply, v11_eq]
  have e : idx_main_v15 (idx_main_v16 (ix2 n k)) = ix1 n :=
    funext fun a => by match a with | ⟨0, _⟩ => rfl
  rw [e, v14_eq]
  rfl

/-- The softmax weight: the exponential over the sum of the row's 32 exponentials. -/
theorem v22_eq (n : Fin 8192) (k : Fin 32) :
    val_main_v22 (F := Ideal) x0 x1 x2 (ix2 n k) = gam (fun d' => x0 (ix2 n d')) x1 x2 k := by
  have e : idx_main_v20 (idx_main_v21 (ix2 n k)) = ix1 n :=
    funext fun a => by match a with | ⟨0, _⟩ => rfl
  rw [val_main_v22_apply, val_main_v21_apply, val_main_v20_apply, e, val_main_v19_apply, val_main_cst_3_apply,
    v18_eq]
  have e' : ∀ k' : Fin 32, idx_main_v19 (ix1 n) k' = ix2 n k' := fun k' =>
    funext fun a => by match a with | ⟨0, _⟩ => rfl | ⟨1, _⟩ => rfl
  have hs : ∑ k' : Fin 32, val_main_v18 (F := Ideal) x0 x1 x2 (idx_main_v19 (ix1 n) k')
      = ∑ k' : Fin 32, ex (fun d' => x0 (ix2 n d')) x1 x2 k' :=
    Finset.sum_congr rfl fun k' _ => by rw [e' k', v18_eq]
  rw [hs]
  unfold gam
  simp only [Ideal.hostDivf_def, Ideal.ofBits_def, Ideal.ofBits_zero_f32, zero_add]

/-- The sigma part's summand. -/
theorem v29_eq (n : Fin 8192) (k : Fin 32) (d : Fin 256) :
    val_main_v29 (F := Ideal) x0 x1 x2 (ix3 n k d) = sigTerm (fun d' => x0 (ix2 n d')) x1 x2 k d := by
  have e : idx_main_v27 (idx_main_v28 (ix3 n k d)) = ix2 n k :=
    funext fun a => by match a with | ⟨0, _⟩ => rfl | ⟨1, _⟩ => rfl
  rw [val_main_v29_apply, val_main_v28_apply, val_main_v27_apply, e, v22_eq, val_main_v26_apply,
    val_main_v24_apply, v8_eq, val_main_v23_apply, val_main_cst_4_apply, val_main_v25_apply,
    val_main_cst_5_apply]
  rfl

/-- The mu part's summand. -/
theorem v32_eq (n : Fin 8192) (k : Fin 32) (d : Fin 256) :
    val_main_v32 (F := Ideal) x0 x1 x2 (ix3 n k d) = muTerm (fun d' => x0 (ix2 n d')) x1 x2 k d := by
  have e : idx_main_v27 (idx_main_v31 (ix3 n k d)) = ix2 n k :=
    funext fun a => by match a with | ⟨0, _⟩ => rfl | ⟨1, _⟩ => rfl
  rw [val_main_v32_apply, val_main_v31_apply, val_main_v27_apply, e, v22_eq, v7_eq]
  rfl

/-! ## The two reshapes: column c = 256·k + d of row n is the element (n, k, d) -/

theorem idx_reshape (n : Fin 8192) (c : Fin 8192) (k : Fin 32) (d : Fin 256) (hc : c.val = 256 * k.val + d.val) :
    idx_main_v30 (ix2 n c) = ix3 n k d := by
  have hn := n.isLt; have hk := k.isLt; have hd := d.isLt
  funext a
  refine Fin.ext ?_
  match a with
  | ⟨0, _⟩ => show (n.val * 8192 + c.val) / 8192 = n.val; omega
  | ⟨1, _⟩ => show (n.val * 8192 + c.val) / 256 % 32 = k.val; omega
  | ⟨2, _⟩ => show (n.val * 8192 + c.val) % 256 = d.val; omega

theorem v30_eq (n : Fin 8192) (c : Fin 8192) (k : Fin 32) (d : Fin 256) (hc : c.val = 256 * k.val + d.val) :
    val_main_v30 (F := Ideal) x0 x1 x2 (ix2 n c) = sigTerm (fun d' => x0 (ix2 n d')) x1 x2 k d := by
  rw [val_main_v30_apply, idx_reshape n c k d hc, v29_eq]

theorem v33_eq (n : Fin 8192) (c : Fin 8192) (k : Fin 32) (d : Fin 256) (hc : c.val = 256 * k.val + d.val) :
    val_main_v33 (F := Ideal) x0 x1 x2 (ix2 n c) = muTerm (fun d' => x0 (ix2 n d')) x1 x2 k d := by
  rw [val_main_v33_apply]
  have e : idx_main_v33 (ix2 n c) = ix3 n k d := idx_reshape n c k d hc
  rw [e, v32_eq]

/-! ## The concatenation: the sigma part in the first 8192 columns, the mu part in the last -/

theorem v34_left (n : Fin 8192) (q : Fin 16384) (k : Fin 32) (d : Fin 256) (hq : q.val = 256 * k.val + d.val) :
    val_main_v34 (F := Ideal) x0 x1 x2 (ix2 n q) = sigTerm (fun d' => x0 (ix2 n d')) x1 x2 k d := by
  have hk := k.isLt; have hd := d.isLt
  unfold val_main_v34
  rw [concat_left _ _ _ n q ⟨q.val, by omega⟩ rfl]
  exact v30_eq x0 x1 x2 n _ k d hq

theorem v34_right (n : Fin 8192) (q : Fin 16384) (k : Fin 32) (d : Fin 256)
    (hq : q.val = 8192 + 256 * k.val + d.val) :
    val_main_v34 (F := Ideal) x0 x1 x2 (ix2 n q) = muTerm (fun d' => x0 (ix2 n d')) x1 x2 k d := by
  have hk := k.isLt; have hd := d.isLt
  unfold val_main_v34
  rw [concat_right _ _ _ n q ⟨q.val - 8192, by omega⟩ (by show q.val - 8192 + 8192 = q.val; omega)]
  exact v33_eq x0 x1 x2 n _ k d (by show q.val - 8192 = 256 * k.val + d.val; omega)

/-- Column q of row n of the concatenation is the summand of part q / 8192 at component q % 8192 / 256 and
    feature q % 256. -/
theorem v34_eq (n : Fin 8192) (q : Fin 16384) :
    val_main_v34 (F := Ideal) x0 x1 x2 (ix2 n q)
      = term ⟨q.val / 8192, by omega⟩ (fun d' => x0 (ix2 n d')) x1 x2
          ⟨q.val % 8192 / 256, by omega⟩ ⟨q.val % 256, by omega⟩ := by
  unfold term
  by_cases h : q.val < 8192
  · have hs : q.val / 8192 = 0 := by omega
    rw [if_pos (show (⟨q.val / 8192, by omega⟩ : Fin 2).val = 0 from hs)]
    exact v34_left x0 x1 x2 n q _ _ (by show q.val = 256 * (q.val % 8192 / 256) + q.val % 256; omega)
  · have hs : ¬ q.val / 8192 = 0 := by omega
    rw [if_neg (show ¬ (⟨q.val / 8192, by omega⟩ : Fin 2).val = 0 from hs)]
    exact v34_right x0 x1 x2 n q _ _ (by show q.val = 8192 + 256 * (q.val % 8192 / 256) + q.val % 256; omega)

/-! ## The result: the mean over the 8192 rows -/

theorem result_eq : val_main_v37 (F := Ideal) x0 x1 x2 = Cert.Fisher.result x0 x1 x2 := by
  funext j
  obtain ⟨q, rfl⟩ : ∃ q : Fin 16384, j = ix1 q := ⟨j 0, eq_ix1 j⟩
  show _ = resultAt x0 x1 x2 q
  rw [resultAt_eq_mean, val_main_v37_apply, val_main_v36_apply, val_main_cst_7_apply, val_main_v35_apply,
    val_main_cst_6_apply]
  have e : ∀ n : Fin 8192, idx_main_v35 (ix1 q) n = ix2 n q := fun n =>
    funext fun a => by match a with | ⟨0, _⟩ => rfl | ⟨1, _⟩ => rfl
  have hs : ∑ n : Fin 8192, val_main_v34 (F := Ideal) x0 x1 x2 (idx_main_v35 (ix1 q) n)
      = ∑ n : Fin 8192, term ⟨q.val / 8192, by omega⟩ (fun d' => x0 (ix2 n d')) x1 x2
          ⟨q.val % 8192 / 256, by omega⟩ ⟨q.val % 256, by omega⟩ :=
    Finset.sum_congr rfl fun n _ => by rw [e n, v34_eq]
  rw [hs]
  rfl

end Cert.ReferenceIdeal.RefValue

end
-- ==== Proof.KernelPay.lean ====
/-
  The kernel body's pure values read at one index, at the ideal values (the extended reals).

  The body computes, for a tile of 256 data rows x and the parameters w, b : [32, 256]:
    pay5 (r, k, d) = w k d · (x r d + b k d)                         (y1 of row r)
    pay6 (r, k, d) = pay5 · pay5                                      (y2 of row r)
    pay7 (r, k, 0) = the softmax over the 32 components of (-1/2) · Σ_d pay6 (r, k, d)   (gam of row r)
    pay8 (r, k, d) = pay7 (r, k, 0) · ((pay6 (r, k, d) - 1) · (1/√2 as f32))             (sigTerm of row r)
    pay9 (r, k, d) = pay7 (r, k, 0) · pay5 (r, k, d)                                     (muTerm of row r)
  and the accumulator updates: pay1 / pay2 add to the running sum at (k, d) the sum over the tile's 256 rows,
  pay10 reads the running sum's first half as [32, 256], pay3 scales by 2⁻¹³ and pay4 is the zero array.
  Each statement below says so at an index written by its coordinates.
-/
import proofs.«142013_j30846455119907_1_alg».proof.Proof.Gen.KernelIdeal.Skeleton
import proofs.«142013_j30846455119907_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Fisher Idealize.ShloMosaic Idealize.ShloMosaic.ValueIdx

/-! ## The accumulator's values -/

/-- The final scaling: every element times 2⁻¹³. -/
theorem pay3_apply (v55 : Vec Ideal S2x32x256 .f32) (i : S2x32x256.Idx) :
    k0_pay3 (F := Ideal) v55 i = v55 i * Ideal.ofBits .f32 0x39000000#32 := rfl

/-- The initial accumulator is zero everywhere. -/
theorem pay4_apply (i : S2x32x256.Idx) : k0_pay4 (F := Ideal) i = 0 := by
  show shapeCast S2x32x256 (broadcast S2x32x256 (Ideal.ofBits .f32 0x00000000#32)) shapeCasts_S2x32x256_S2x32x256 i = 0
  rw [shapeCast_self, broadcast_apply, Ideal.ofBits_zero_f32]

/-- The running sum's first half [1, 32, 256] viewed [32, 256]: (k, d) reads (0, k, d). -/
theorem pay10_apply (v38 : Vec Ideal S1x32x256 .f32) (k : Fin 32) (d : Fin 256) :
    k0_pay10 (F := Ideal) v38 (ix2 k d) = v38 (ix3 (0 : Fin 1) k d) :=
  shapeCast_1ab_ab_apply v38 shapeCasts_S1x32x256_S32x256 k d

/-- A sum over the rows of a [256, 32, 256] array at (k, d) runs over the indices (r, k, d). -/
theorem lift0_eq (h : S256x32x256.Reduces [0] S32x256) (k : Fin 32) (d : Fin 256) (r : Fin 256) :
    h.lift (ix2 k d) r = ix3 r k d := by
  funext a
  match a with
  | ⟨0, _⟩ => exact Fin.ext rfl
  | ⟨1, _⟩ => exact Fin.ext rfl
  | ⟨2, _⟩ => exact Fin.ext rfl

/-- The sigma half's update: the running sum at (k, d) plus the sum over the tile's 256 rows. -/
theorem pay1_apply (v35 : FVec Ideal S256x32x256 .f32) (v39 : FVec Ideal S32x256 .f32) (k : Fin 32) (d : Fin 256) :
    k0_pay1 (F := Ideal) v35 v39 (ix3 (0 : Fin 1) k d) = v39 (ix2 k d) + ∑ r : Fin 256, v35 (ix3 r k d) := by
  unfold k0_pay1
  refine (shapeCast_ab_1ab_apply _ shapeCasts_S32x256_S1x32x256 (0 : Fin 1) k d).trans ?_
  rw [addf_apply]
  refine congrArg (fun z => v39 (ix2 k d) + z) ?_
  refine (Ideal.multiReduction_add_single v35 _ reduces_S256x32x256_S32x256 (.inl rfl) rfl (ix2 k d)).trans ?_
  exact Finset.sum_congr rfl fun r _ => congrArg v35 (lift0_eq _ k d r)

/-- The mu half's update: the running sum's second half at (0, k, d) plus the sum over the tile's 256 rows. -/
theorem pay2_apply (v37 : FVec Ideal S256x32x256 .f32) (v45 : Vec Ideal S1x32x256 .f32) (k : Fin 32) (d : Fin 256) :
    k0_pay2 (F := Ideal) v37 v45 (ix3 (0 : Fin 1) k d) = v45 (ix3 (0 : Fin 1) k d) + ∑ r : Fin 256, v37 (ix3 r k d) := by
  unfold k0_pay2
  refine (shapeCast_ab_1ab_apply _ shapeCasts_S32x256_S1x32x256 (0 : Fin 1) k d).trans ?_
  rw [addf_apply, shapeCast_1ab_ab_apply]
  refine congrArg (fun z => v45 (ix3 (0 : Fin 1) k d) + z) ?_
  refine (Ideal.multiReduction_add_single v37 _ reduces_S256x32x256_S32x256 (.inl rfl) rfl (ix2 k d)).trans ?_
  exact Finset.sum_congr rfl fun r _ => congrArg v37 (lift0_eq _ k d r)

/-! ## Layout operations at literal coordinates: the unit axes a broadcast along an axis goes through -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b, c]` array broadcast to `[a, b, c]` reads, at `(p, q, e)`, its one slab at `(q, e)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- An `[a, 1, c]` array broadcast to `[a, b, c]` reads, at `(p, q, e)`, the operand at `(p, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- An `[a, b, 1]` array broadcast to `[a, b, c]` reads, at `(p, q, e)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-! ## One row's values: y1 and y2 -/

/-- The affine value of row `r`, component `k`, feature `d`: w · (x + b). -/
theorem pay5_apply (xb : Vec Ideal S256x256 .f32) (w b : Vec Ideal S32x256 .f32) (r : Fin 256) (k : Fin 32) (d : Fin 256) :
    k0_pay5 (F := Ideal) xb w b (ix3 r k d) = y1 (fun d' => xb (ix2 r d')) w b k d := by
  show broadcastTo S256x32x256 (shapeCast S1x32x256 w shapeCasts_S32x256_S1x32x256) broadcasts_S1x32x256_S256x32x256 (ix3 r k d)
      * (broadcastTo S256x32x256 (shapeCast S256x1x256 xb shapeCasts_S256x256_S256x1x256) broadcasts_S256x1x256_S256x32x256 (ix3 r k d)
        + broadcastTo S256x32x256 (shapeCast S1x32x256 b shapeCasts_S32x256_S1x32x256) broadcasts_S1x32x256_S256x32x256 (ix3 r k d))
    = w (ix2 k d) * (xb (ix2 r d) + b (ix2 k d))
  rw [broadcastTo_1bc_abc_apply, broadcastTo_1bc_abc_apply, broadcastTo_a1c_abc_apply, shapeCast_ab_1ab_apply,
    shapeCast_ab_1ab_apply, shapeCast_ab_a1b_apply]

/-- Its square. -/
theorem pay6_apply (xb : Vec Ideal S256x256 .f32) (w b : Vec Ideal S32x256 .f32) (r : Fin 256) (k : Fin 32) (d : Fin 256) :
    k0_pay6 (F := Ideal) xb w b (ix3 r k d) = y2 (fun d' => xb (ix2 r d')) w b k d := by
  show k0_pay5 (F := Ideal) xb w b (ix3 r k d) * k0_pay5 (F := Ideal) xb w b (ix3 r k d) = _
  rw [pay5_apply]
  rfl

/-! ## The softmax over the 32 components

The body's operations from the squares to the weights, named one by one over a variable [256, 32] array so that each is
read at an index by itself: the exponents `expo`, each row's largest exponent `rmax` (against -∞, twice), a [256] array
spread along the components `spread`, the shifted exponentials `expd`, their row sums `rsum`, the quotient `soft`. -/

/-- A sum over the features of a [256, 32, 256] array at (r, k) runs over the indices (r, k, d). -/
theorem lift2_eq (h : S256x32x256.Reduces [2] S256x32) (r : Fin 256) (k : Fin 32) (d : Fin 256) :
    h.lift (ix2 r k) d = ix3 r k d := by
  funext a
  match a with
  | ⟨0, _⟩ => exact Fin.ext rfl
  | ⟨1, _⟩ => exact Fin.ext rfl
  | ⟨2, _⟩ => exact Fin.ext rfl

/-- A reduction over the components of a [256, 32] array at r runs over the indices (r, k). -/
theorem lift1_eq (h : S256x32.Reduces [1] S256) (r : Fin 256) (k : Fin 32) : h.lift (ix1 r) k = ix2 r k := by
  funext a
  match a with
  | ⟨0, _⟩ => exact Fin.ext rfl
  | ⟨1, _⟩ => exact Fin.ext rfl

/-- The exponents: (-1/2) · Σ_d of the squares, a [256, 32] array. -/
def expo (xb : Vec Ideal S256x256 .f32) (w b : Vec Ideal S32x256 .f32) : FVec Ideal S256x32 .f32 :=
  mulf (broadcast S256x32 (Scalar.ofBits (F := Ideal) .f32 0xBF000000#32))
    (multiReduction .add [2] S256x32 (k0_pay6 (F := Ideal) xb w b) 0x00000000#32 reduces_S256x32x256_S256x32 (.inl rfl) rfl)

/-- Each row's largest element, taken against -∞ once in the reduction and once more after it. -/
def rmax (e : FVec Ideal S256x32 .f32) : FVec Ideal S256 .f32 :=
  maximumf (broadcast S256 (Scalar.ofBits (F := Ideal) .f32 0xFF800000#32))
    (multiReduction .maximumf [1] S256 e 0xFF800000#32 reduces_S256x32_S256 (.inl rfl) rfl)

/-- A [256] array spread along the 32 components: viewed as the column [256, 1], then broadcast to [256, 32]. -/
def spread (u : FVec Ideal S256 .f32) : FVec Ideal S256x32 .f32 :=
  broadcastTo S256x32 (shapeCast S256x1 u shapeCasts_S256_S256x1) broadcasts_S256x1_S256x32

/-- The exponentials of the exponents shifted by their row's largest. -/
def expd (e : FVec Ideal S256x32 .f32) : FVec Ideal S256x32 .f32 := exp (subf e (spread (rmax e)))

/-- The sums over the components. -/
def rsum (v : FVec Ideal S256x32 .f32) : FVec Ideal S256 .f32 :=
  multiReduction .add [1] S256 v 0x00000000#32 reduces_S256x32_S256 (.inl rfl) rfl

/-- The softmax weights, kept as a [256, 32, 1] array. -/
def soft (e : FVec Ideal S256x32 .f32) : FVec Ideal S256x32x1 .f32 :=
  shapeCast S256x32x1 (divf (expd e) (spread (rsum (expd e)))) shapeCasts_S256x32_S256x32x1

/-- The body's weights are the softmax of its exponents: the same operations in the same order. -/
theorem pay7_eq (xb : Vec Ideal S256x256 .f32) (w b : Vec Ideal S32x256 .f32) :
    k0_pay7 (F := Ideal) xb w b = soft (expo xb w b) := rfl

theorem expo_apply (xb : Vec Ideal S256x256 .f32) (w b : Vec Ideal S32x256 .f32) (r : Fin 256) (k : Fin 32) :
    expo xb w b (ix2 r k) = y4 (fun d' => xb (ix2 r d')) w b k := by
  unfold expo y4
  rw [mulf_apply, broadcast_apply]
  refine congrArg (fun z => Ideal.ofBits .f32 0xBF000000#32 * z) ?_
  refine (Ideal.multiReduction_add_single _ _ reduces_S256x32x256_S256x32 (.inl rfl) rfl (ix2 r k)).trans ?_
  exact Finset.sum_congr rfl fun d _ =>
    (congrArg (k0_pay6 (F := Ideal) xb w b) (lift2_eq _ r k d)).trans (pay6_apply xb w b r k d)

theorem spread_apply (u : FVec Ideal S256 .f32) (r : Fin 256) (k : Fin 32) : spread u (ix2 r k) = u (ix1 r) := by
  unfold spread
  rw [broadcastTo_a1_ab_apply, shapeCast_a_a1_apply]

theorem rmax_apply (e : FVec Ideal S256x32 .f32) (r : Fin 256) :
    rmax e (ix1 r) = max (Ideal.ofBits .f32 0xFF800000#32)
      ((Finset.univ : Finset (Fin 32)).fold max (Ideal.ofBits .f32 0xFF800000#32) (fun k' => e (ix2 r k'))) := by
  unfold rmax
  rw [maximumf_apply, broadcast_apply]
  refine congrArg (fun z => max (Ideal.ofBits .f32 0xFF800000#32) z) ?_
  refine (Ideal.multiReduction_maximumf_single e _ reduces_S256x32_S256 (.inl rfl) rfl (ix1 r)).trans ?_
  show (Finset.univ : Finset (Fin 32)).fold max (Ideal.ofBits .f32 0xFF800000#32)
      (fun k' => e (reduces_S256x32_S256.lift (ix1 r) k')) = _
  exact congrArg (fun f => Finset.fold max (Ideal.ofBits .f32 0xFF800000#32) f (Finset.univ : Finset (Fin 32)))
    (funext fun k' => congrArg e (lift1_eq _ r k'))

theorem expd_apply (e : FVec Ideal S256x32 .f32) (r : Fin 256) (k : Fin 32) :
    expd e (ix2 r k) = Ideal.exp (e (ix2 r k) - rmax e (ix1 r)) := by
  show Ideal.exp (e (ix2 r k) - spread (rmax e) (ix2 r k)) = _
  rw [spread_apply]

theorem rsum_apply (v : FVec Ideal S256x32 .f32) (r : Fin 256) : rsum v (ix1 r) = ∑ k' : Fin 32, v (ix2 r k') := by
  unfold rsum
  refine (Ideal.multiReduction_add_single v _ reduces_S256x32_S256 (.inl rfl) rfl (ix1 r)).trans ?_
  exact Finset.sum_congr rfl fun k' _ => congrArg v (lift1_eq _ r k')

theorem soft_apply (e : FVec Ideal S256x32 .f32) (r : Fin 256) (k : Fin 32) :
    soft e (ix3 r k (0 : Fin 1)) = Ideal.div (expd e (ix2 r k)) (∑ k' : Fin 32, expd e (ix2 r k')) := by
  unfold soft
  rw [shapeCast_ab_ab1_apply, divf_apply, spread_apply, rsum_apply]

/-- The weight of component `k` for row `r`. -/
theorem pay7_apply (xb : Vec Ideal S256x256 .f32) (w b : Vec Ideal S32x256 .f32) (r : Fin 256) (k : Fin 32) :
    k0_pay7 (F := Ideal) xb w b (ix3 r k (0 : Fin 1)) = gam (fun d' => xb (ix2 r d')) w b k := by
  rw [pay7_eq, soft_apply]
  simp only [expd_apply, rmax_apply, expo_apply]
  rfl

/-! ## The two summands -/

/-- The mu summand of row `r` at (k, d). -/
theorem pay9_apply (xb : Vec Ideal S256x256 .f32) (w b : Vec Ideal S32x256 .f32) (r : Fin 256) (k : Fin 32) (d : Fin 256) :
    k0_pay9 (F := Ideal) xb w b (ix3 r k d) = muTerm (fun d' => xb (ix2 r d')) w b k d := by
  show broadcastTo S256x32x256 (k0_pay7 (F := Ideal) xb w b) broadcasts_S256x32x1_S256x32x256 (ix3 r k d)
      * k0_pay5 (F := Ideal) xb w b (ix3 r k d) = _
  rw [broadcastTo_ab1_abc_apply, pay7_apply, pay5_apply]
  rfl

/-- The sigma summand of row `r` at (k, d). -/
theorem pay8_apply (xb : Vec Ideal S256x256 .f32) (w b : Vec Ideal S32x256 .f32) (r : Fin 256) (k : Fin 32) (d : Fin 256) :
    k0_pay8 (F := Ideal) xb w b (ix3 r k d) = sigTerm (fun d' => xb (ix2 r d')) w b k d := by
  show broadcastTo S256x32x256 (k0_pay7 (F := Ideal) xb w b) broadcasts_S256x32x1_S256x32x256 (ix3 r k d)
      * ((k0_pay6 (F := Ideal) xb w b (ix3 r k d) - Ideal.ofBits .f32 0x3F800000#32) * Ideal.ofBits .f32 0x3F3504F3#32) = _
  rw [broadcastTo_ab1_abc_apply, pay7_apply, pay6_apply]
  rfl

end Cert.KernelIdeal.Pay

end
-- ==== Proof.KernelPieces.lean ====
/-
  What one grid point leaves behind, entry by entry, at the ideal values.

  The kernel keeps a running sum acc : [2, 32, 256] (row 0: the sigma part, row 1: the mu part) and visits the
  32 tiles of 256 data rows in order.  At every point it adds to acc (s, k, d) the tile's sum
      Σ_r term s (row r of the tile) w b k d;
  at the first point acc is zeroed before that, and at the last point the output block is acc · 2⁻¹³.
  The accumulator is written in two halves (rows 0 and 1); what a list of stores leaves is read off the list:
  an entry holds the payload of the last store whose rectangle contains it.
-/
import proofs.«142013_j30846455119907_1_alg».proof.Proof.Gen.KernelIdeal.Frame
import proofs.«142013_j30846455119907_1_alg».proof.Proof.Spec
import proofs.«142013_j30846455119907_1_alg».proof.Proof.KernelPay
import Idealize.ShloMosaic.Lib.Pipeline.Value
import Idealize.ShloMosaic.Lib.Pipeline.FrameBody
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Pieces

open Cert.KernelIdeal Cert.KernelIdeal.Gen Cert.KernelIdeal.Facts Cert.Fisher Cert.KernelIdeal.Pay

/-- The accumulator `[2, 32, 256]` is written in two halves: rows `0` (the sigma sums) and `1` (the mu sums). -/
abbrev lo : Rect S2x32x256 := Rect.unit ![0, 0, 0] ![1, 32, 256] inb_S2x32x256_S1x32x256_0_0_0
abbrev hi : Rect S2x32x256 := Rect.unit ![1, 0, 0] ![1, 32, 256] inb_S2x32x256_S1x32x256_1_0_0
abbrev all : Rect S2x32x256 := Rect.unit ![0, 0, 0] S2x32x256.size inb_S2x32x256_S2x32x256_0_0_0

theorem zeros3 : (![0, 0, 0] : Fin 3 → Nat) = fun _ => 0 := funext fun a => by fin_cases a <;> rfl

/-- Entry (0, k, d) of the lower half is entry (0, k, d) of the accumulator; -/
theorem lo_emb (k : Fin 32) (d : Fin 256) : lo.emb (ix3 (0 : Fin 1) k d) = ix3 (0 : Fin 2) k d := by
  funext a
  match a with
  | ⟨0, _⟩ => exact Fin.ext (by rw [Rect.emb_apply]; show 0 + 1 * 0 = 0; rfl)
  | ⟨1, _⟩ => exact Fin.ext (by rw [Rect.emb_apply]; show 0 + 1 * k.val = k.val; omega)
  | ⟨2, _⟩ => exact Fin.ext (by rw [Rect.emb_apply]; show 0 + 1 * d.val = d.val; omega)

/-- of the upper half, entry (1, k, d). -/
theorem hi_emb (k : Fin 32) (d : Fin 256) : hi.emb (ix3 (0 : Fin 1) k d) = ix3 (1 : Fin 2) k d := by
  funext a
  match a with
  | ⟨0, _⟩ => exact Fin.ext (by rw [Rect.emb_apply]; show 1 + 1 * 0 = 1; rfl)
  | ⟨1, _⟩ => exact Fin.ext (by rw [Rect.emb_apply]; show 0 + 1 * k.val = k.val; omega)
  | ⟨2, _⟩ => exact Fin.ext (by rw [Rect.emb_apply]; show 0 + 1 * d.val = d.val; omega)

/-- Row 0 is not in the upper half, -/
theorem row0_not_mem_hi (k : Fin 32) (d : Fin 256) : ix3 (0 : Fin 2) k d ∉ hi.set := by
  rw [Rect.mem_set_unit]
  intro h
  have h0 : (1 : ℕ) ≤ 0 := (h ⟨0, Nat.zero_lt_succ 2⟩).1
  omega

/-- and row 1 is not in the lower half. -/
theorem row1_not_mem_lo (k : Fin 32) (d : Fin 256) : ix3 (1 : Fin 2) k d ∉ lo.set := by
  rw [Rect.mem_set_unit]
  intro h
  have h0 : (1 : ℕ) < 0 + 1 := (h ⟨0, Nat.zero_lt_succ 2⟩).2
  omega

variable {Val : EltTy → Type} [∀ e, Nonempty (Val e)]

/-- After a store of the lower half and then of the upper half (whatever came before), row 1 holds the upper
    half's payload -/
theorem canon_hi_lo_row1 (p1 : hi.shape.Idx → Val .f32) (p0 : lo.shape.Idx → Val .f32) (L : List (View.Piece Val S2x32x256 .f32)) (k : Fin 32) (d : Fin 256) :
    View.canon ((⟨hi, p1⟩ : View.Piece Val S2x32x256 .f32) :: ⟨lo, p0⟩ :: L) (ix3 (1 : Fin 2) k d) = p1 (ix3 (0 : Fin 1) k d) :=
  (congrArg (View.canon ((⟨hi, p1⟩ : View.Piece Val S2x32x256 .f32) :: ⟨lo, p0⟩ :: L)) (hi_emb k d).symm).trans
    (View.canon_cons_emb hi p1 (⟨lo, p0⟩ :: L) (ix3 (0 : Fin 1) k d))

/-- and row 0 the lower half's. -/
theorem canon_hi_lo_row0 (p1 : hi.shape.Idx → Val .f32) (p0 : lo.shape.Idx → Val .f32) (L : List (View.Piece Val S2x32x256 .f32)) (k : Fin 32) (d : Fin 256) :
    View.canon ((⟨hi, p1⟩ : View.Piece Val S2x32x256 .f32) :: ⟨lo, p0⟩ :: L) (ix3 (0 : Fin 2) k d) = p0 (ix3 (0 : Fin 1) k d) :=
  (View.canon_cons_of_not_mem (⟨hi, p1⟩ : View.Piece Val S2x32x256 .f32) (⟨lo, p0⟩ :: L) (row0_not_mem_hi k d)).trans
    ((congrArg (View.canon ((⟨lo, p0⟩ : View.Piece Val S2x32x256 .f32) :: L)) (lo_emb k d).symm).trans
      (View.canon_cons_emb lo p0 L (ix3 (0 : Fin 1) k d)))

theorem zeros2 : (![0, 0] : Fin 2 → Nat) = fun _ => 0 := funext fun a => by fin_cases a <;> rfl

theorem fin2_cases (s : Fin 2) : s = 0 ∨ s = 1 := by
  rcases s with ⟨v, hv⟩
  have h : v = 0 ∨ v = 1 := by omega
  rcases h with rfl | rfl
  · exact Or.inl rfl
  · exact Or.inr rfl

theorem term_zero (xr : Fin 256 → EReal) (w b : WArr) (k : Fin 32) (d : Fin 256) : term 0 xr w b k d = sigTerm xr w b k d := by
  unfold term; exact if_pos rfl
theorem term_one (xr : Fin 256 → EReal) (w b : WArr) (k : Fin 32) (d : Fin 256) : term 1 xr w b k d = muTerm xr w b k d := by
  unfold term; exact if_neg (by decide)

/-- A load of the lower (upper) half reads row 0 (row 1). -/
theorem ld_lo (X : S2x32x256.Idx → EReal) (k : Fin 32) (d : Fin 256) : View.ld (Val := Elt Ideal) (e' := .f32) X lo (ix3 (0 : Fin 1) k d) = X (ix3 (0 : Fin 2) k d) :=
  congrArg X (lo_emb k d)
theorem ld_hi (X : S2x32x256.Idx → EReal) (k : Fin 32) (d : Fin 256) : View.ld (Val := Elt Ideal) (e' := .f32) X hi (ix3 (0 : Fin 1) k d) = X (ix3 (1 : Fin 2) k d) :=
  congrArg X (hi_emb k d)

/-- CASE B (points 1 … 30): each accumulator entry gains its tile's sum. -/
theorem sout_B_apply (c : Dev nD) (i : grid0.Coords) (arg1 : Memref sig .tc .vmem S256x256 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S2x32x256 .f32) (harg4 : arg4.IsWhole) (arg5 : Memref sig .tc .vmem S2x32x256 .f32) (harg5 : arg5.IsWhole) (hc0 : ¬cond0_0 i) (hc1 : ¬cond0_1 i)
    (x0 : Vec Ideal S256x256 .f32) (x1 : Vec Ideal S32x256 .f32) (x2 : Vec Ideal S32x256 .f32) (xs0 : Vec Ideal S2x32x256 .f32) (s : Fin 2) (k : Fin 32) (d : Fin 256) :
    sout0_B_0 (F := Ideal) c i arg1 harg1 arg2 harg2 arg3 harg3 arg4 harg4 arg5 harg5 hc0 hc1 x0 x1 x2 xs0 (ix3 s k d)
      = xs0 (ix3 s k d) + ∑ r : Fin 256, term s (fun d' => x0 (ix2 r d')) x1 x2 k d := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  simp only [View.readAt_eq_ld, harg1.read_unread, harg2.read_unread, harg3.read_unread, harg5.read_unread,
    View.ld_unit_zero (S := S256x256) zeros2, View.ld_unit_zero (S := S32x256) zeros2]
  rcases fin2_cases s with rfl | rfl
  · refine (canon_hi_lo_row0 _ _ [] k d).trans ?_
    refine (pay1_apply _ _ k d).trans ?_
    refine congrArg₂ (· + ·) ((pay10_apply _ k d).trans (ld_lo xs0 k d)) ?_
    exact Finset.sum_congr rfl fun r _ => (pay8_apply x0 x1 x2 r k d).trans (term_zero _ _ _ k d).symm
  · refine (canon_hi_lo_row1 _ _ [] k d).trans ?_
    refine (pay2_apply _ _ k d).trans ?_
    refine congrArg₂ (· + ·) (ld_hi xs0 k d) ?_
    exact Finset.sum_congr rfl fun r _ => (pay9_apply x0 x1 x2 r k d).trans (term_one _ _ _ k d).symm

/-- The whole accumulator read through the whole-array rectangle is itself. -/
theorem all_idx (y : S2x32x256.Idx) : all.idx y = y := by
  funext a
  exact Fin.ext (by rw [LoadRect.idx_apply]; show (![0, 0, 0] : Fin 3 → Nat) a + 1 * (y a).val = (y a).val; rw [congrFun zeros3 a]; omega)

section Loads
variable {sg : RefSig} {κ : Kind} {sp : Space} (v : View sg κ sp S2x32x256 .f32)

/-- After one store of the whole accumulator, a load of the lower half reads that store's row 0; -/
theorem readCov_all_lo (w : S2x32x256.Idx → Elt Ideal .f32) (k : Fin 32) (d : Fin 256) :
    v.readCov [(⟨all, w⟩ : View.Piece (Elt Ideal) S2x32x256 .f32)] lo.toLoadRect (ix3 (0 : Fin 1) k d) = w (ix3 (0 : Fin 2) k d) := by
  rw [View.readCov_eq_canon']
  show View.canon [(⟨all, w⟩ : View.Piece (Elt Ideal) S2x32x256 .f32)] (lo.emb (ix3 (0 : Fin 1) k d)) = _
  rw [lo_emb]
  exact congrFun (View.canon_unit_zero (S := S2x32x256) zeros3 _ w) _

/-- after a store of the whole accumulator and then of its lower half, a load of the upper half reads the first
    store's row 1. -/
theorem readCov_lo_all_hi (p0 : lo.shape.Idx → Elt Ideal .f32) (w : S2x32x256.Idx → Elt Ideal .f32) (k : Fin 32) (d : Fin 256) :
    v.readCov [(⟨lo, p0⟩ : View.Piece (Elt Ideal) S2x32x256 .f32), ⟨all, w⟩] hi.toLoadRect (ix3 (0 : Fin 1) k d) = w (ix3 (1 : Fin 2) k d) := by
  rw [View.readCov_eq_canon']
  show View.canon [(⟨lo, p0⟩ : View.Piece (Elt Ideal) S2x32x256 .f32), ⟨all, w⟩] (hi.emb (ix3 (0 : Fin 1) k d)) = _
  rw [hi_emb]
  refine (View.canon_cons_of_not_mem (⟨lo, p0⟩ : View.Piece (Elt Ideal) S2x32x256 .f32) [⟨all, w⟩] (row1_not_mem_lo k d)).trans ?_
  exact congrFun (View.canon_unit_zero (S := S2x32x256) zeros3 _ w) _

/-- After the two halves are stored, a load of the whole accumulator reads them, entry by entry. -/
theorem readCov_hi_lo_all (p1 : hi.shape.Idx → Elt Ideal .f32) (p0 : lo.shape.Idx → Elt Ideal .f32) (y : S2x32x256.Idx) :
    v.readCov [(⟨hi, p1⟩ : View.Piece (Elt Ideal) S2x32x256 .f32), ⟨lo, p0⟩] all.toLoadRect y
      = View.canon [(⟨hi, p1⟩ : View.Piece (Elt Ideal) S2x32x256 .f32), ⟨lo, p0⟩] y := by
  rw [View.readCov_eq_canon']
  show View.canon _ (all.idx y) = _
  rw [all_idx]

end Loads

/-- CASE A (point 0): the accumulator is zeroed, then each entry gains the first tile's sum. -/
theorem sout_A_apply (c : Dev nD) (i : grid0.Coords) (arg1 : Memref sig .tc .vmem S256x256 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S2x32x256 .f32) (harg4 : arg4.IsWhole) (arg5 : Memref sig .tc .vmem S2x32x256 .f32) (harg5 : arg5.IsWhole) (hc0 : cond0_0 i) (hc1 : ¬cond0_1 i)
    (x0 : Vec Ideal S256x256 .f32) (x1 : Vec Ideal S32x256 .f32) (x2 : Vec Ideal S32x256 .f32) (s : Fin 2) (k : Fin 32) (d : Fin 256) :
    sout0_A_0 (F := Ideal) c i arg1 harg1 arg2 harg2 arg3 harg3 arg4 harg4 arg5 harg5 hc0 hc1 x0 x1 x2 (ix3 s k d)
      = ∑ r : Fin 256, term s (fun d' => x0 (ix2 r d')) x1 x2 k d := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  simp only [View.readAt_eq_ld, harg1.read_unread, harg2.read_unread, harg3.read_unread,
    View.ld_unit_zero (S := S256x256) zeros2, View.ld_unit_zero (S := S32x256) zeros2]
  rcases fin2_cases s with rfl | rfl
  · refine (canon_hi_lo_row0 _ _ _ k d).trans ?_
    refine (pay1_apply _ _ k d).trans ?_
    refine (congrArg₂ (· + ·) ((pay10_apply _ k d).trans ((readCov_all_lo _ _ k d).trans (pay4_apply _))) ?_).trans (zero_add _)
    exact Finset.sum_congr rfl fun r _ => (pay8_apply x0 x1 x2 r k d).trans (term_zero _ _ _ k d).symm
  · refine (canon_hi_lo_row1 _ _ _ k d).trans ?_
    refine (pay2_apply _ _ k d).trans ?_
    refine (congrArg₂ (· + ·) ((readCov_lo_all_hi _ _ _ k d).trans (pay4_apply _)) ?_).trans (zero_add _)
    exact Finset.sum_congr rfl fun r _ => (pay9_apply x0 x1 x2 r k d).trans (term_one _ _ _ k d).symm

/-- CASE C (point 31), the accumulator: as in case B. -/
theorem sout_C_apply (c : Dev nD) (i : grid0.Coords) (arg1 : Memref sig .tc .vmem S256x256 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S2x32x256 .f32) (harg4 : arg4.IsWhole) (arg5 : Memref sig .tc .vmem S2x32x256 .f32) (harg5 : arg5.IsWhole) (hc0 : ¬cond0_0 i) (hc1 : cond0_1 i)
    (x0 : Vec Ideal S256x256 .f32) (x1 : Vec Ideal S32x256 .f32) (x2 : Vec Ideal S32x256 .f32) (xs0 : Vec Ideal S2x32x256 .f32) (s : Fin 2) (k : Fin 32) (d : Fin 256) :
    sout0_C_0 (F := Ideal) c i arg1 harg1 arg2 harg2 arg3 harg3 arg4 harg4 arg5 harg5 hc0 hc1 x0 x1 x2 xs0 (ix3 s k d)
      = xs0 (ix3 s k d) + ∑ r : Fin 256, term s (fun d' => x0 (ix2 r d')) x1 x2 k d := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  simp only [View.readAt_eq_ld, harg1.read_unread, harg2.read_unread, harg3.read_unread, harg5.read_unread,
    View.ld_unit_zero (S := S256x256) zeros2, View.ld_unit_zero (S := S32x256) zeros2]
  rcases fin2_cases s with rfl | rfl
  · refine (canon_hi_lo_row0 _ _ [] k d).trans ?_
    refine (pay1_apply _ _ k d).trans ?_
    refine congrArg₂ (· + ·) ((pay10_apply _ k d).trans (ld_lo xs0 k d)) ?_
    exact Finset.sum_congr rfl fun r _ => (pay8_apply x0 x1 x2 r k d).trans (term_zero _ _ _ k d).symm
  · refine (canon_hi_lo_row1 _ _ [] k d).trans ?_
    refine (pay2_apply _ _ k d).trans ?_
    refine congrArg₂ (· + ·) (ld_hi xs0 k d) ?_
    exact Finset.sum_congr rfl fun r _ => (pay9_apply x0 x1 x2 r k d).trans (term_one _ _ _ k d).symm

/-- CASE C (point 31), the output block: the accumulator just updated, times 2⁻¹³. -/
theorem out_C_apply (c : Dev nD) (i : grid0.Coords) (arg1 : Memref sig .tc .vmem S256x256 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S2x32x256 .f32) (harg4 : arg4.IsWhole) (arg5 : Memref sig .tc .vmem S2x32x256 .f32) (harg5 : arg5.IsWhole) (hc0 : ¬cond0_0 i) (hc1 : cond0_1 i)
    (x0 : Vec Ideal S256x256 .f32) (x1 : Vec Ideal S32x256 .f32) (x2 : Vec Ideal S32x256 .f32) (xs0 : Vec Ideal S2x32x256 .f32) (s : Fin 2) (k : Fin 32) (d : Fin 256) :
    out0_C_3 (F := Ideal) c i arg1 harg1 arg2 harg2 arg3 harg3 arg4 harg4 arg5 harg5 hc0 hc1 x0 x1 x2 xs0 (ix3 s k d)
      = (xs0 (ix3 s k d) + ∑ r : Fin 256, term s (fun d' => x0 (ix2 r d')) x1 x2 k d) * Ideal.ofBits .f32 0x39000000#32 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  simp only [View.readAt_eq_ld, harg1.read_unread, harg2.read_unread, harg3.read_unread, harg5.read_unread,
    View.ld_unit_zero (S := S256x256) zeros2, View.ld_unit_zero (S := S32x256) zeros2]
  refine (congrFun (View.canon_unit_zero (S := S2x32x256) zeros3 _ _) _).trans ?_
  refine (pay3_apply _ _).trans ?_
  refine congrArg (· * Ideal.ofBits .f32 0x39000000#32) ?_
  refine (readCov_hi_lo_all _ _ _ _).trans ?_
  rcases fin2_cases s with rfl | rfl
  · refine (canon_hi_lo_row0 _ _ [] k d).trans ?_
    refine (pay1_apply _ _ k d).trans ?_
    refine congrArg₂ (· + ·) ((pay10_apply _ k d).trans (ld_lo xs0 k d)) ?_
    exact Finset.sum_congr rfl fun r _ => (pay8_apply x0 x1 x2 r k d).trans (term_zero _ _ _ k d).symm
  · refine (canon_hi_lo_row1 _ _ [] k d).trans ?_
    refine (pay2_apply _ _ k d).trans ?_
    refine congrArg₂ (· + ·) (ld_hi xs0 k d) ?_
    exact Finset.sum_congr rfl fun r _ => (pay9_apply x0 x1 x2 r k d).trans (term_one _ _ _ k d).symm

end Cert.KernelIdeal.Pieces
end
-- ==== Proof.KernelAcc.lean ====
/-
  The running sum across the grid, and what the kernel's result ends holding.

  Point t of the grid sees rows 256·t … 256·t + 255 of the data array (its tile) and the whole parameter arrays.
  By induction on the point, after point n the accumulator holds at (s, k, d) the sum over tiles 0 … n of the tile
  sums  Σ_r term s (row 256·t + r) w b k d  (the first point starts from zero).  The output block is written once,
  at the last point, as the accumulator times 2⁻¹³, and that block is the whole result array [2, 32, 256].  The
  reshape to [16384] after the region puts entry (s, k, d) at flat index 8192·s + 256·k + d, so the program's
  result is the specification's `result` of the three argument arrays.
-/
import proofs.«142013_j30846455119907_1_alg».proof.Proof.Gen.KernelIdeal.Frame
import proofs.«142013_j30846455119907_1_alg».proof.Proof.Spec
import proofs.«142013_j30846455119907_1_alg».proof.Proof.KernelPieces
import Idealize.ShloMosaic.Lib.Pipeline.Value
import Idealize.ShloMosaic.Lib.Pipeline.FrameSuffix
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Fisher Cert.KernelIdeal.Pieces

variable (m : (ℓ : Loc nD τ sig) → Buf (Elt Ideal) ℓ) (ρ : Dev nD → PrngReg)

/-- The three argument arrays as the region finds them, at their literal types. -/
abbrev xarr (c : Dev nD) : XArr := V m c main_arg0
abbrev warr (c : Dev nD) : WArr := V m c main_arg1
abbrev barr (c : Dev nD) : WArr := V m c main_arg2

/-- The three input blocks at point `t`, at their literal types. -/
abbrev xblk (c : Dev nD) (t : Fin cfg0.N) : Vec Ideal S256x256 .f32 := iblk m c 0 t
abbrev wblk (c : Dev nD) (t : Fin cfg0.N) : Vec Ideal S32x256 .f32 := iblk m c 1 t
abbrev bblk (c : Dev nD) (t : Fin cfg0.N) : Vec Ideal S32x256 .f32 := iblk m c 2 t

/-- The index maps, decided over the grid: the data window's block row is the point's number, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0 :=
  (by decide +kernel : ∀ t : Fin grid0.N, _)

/-- Row `r` of the data tile at point `t` is row `256·t + r` of the data array. -/
theorem xblk_row (c : Dev nD) (t : Fin cfg0.N) (r : Fin 256) :
    (fun d' => xblk m c t (ix2 r d')) = rowOf (xarr m c) (256 * t.val + r.val) := by
  have hN : t.val < 32 := lt_of_lt_of_eq t.isLt (show cfg0.N = 32 from N_0)
  obtain ⟨e0, e1, -⟩ := idx_facts t
  funext d'
  unfold rowOf
  show V m c main_arg0 (((cfg0.win 0).blk t).view.emb (ix2 r d')) = V m c main_arg0 _
  refine congrArg (V m c main_arg0) ?_
  funext a; apply Fin.ext
  match a with
  | ⟨0, _⟩ => show win0_0.index t (0 : Fin 2) * 256 + 1 * r.val = (256 * t.val + r.val) % 8192; have hr := r.isLt; omega
  | ⟨1, _⟩ => show win0_0.index t (1 : Fin 2) * 256 + 1 * d'.val = d'.val; omega

/-- The parameter blocks are the whole parameter arrays at every point. -/
theorem wblk_eq (c : Dev nD) (t : Fin cfg0.N) : wblk m c t = warr m c := by
  obtain ⟨-, -, e0, e1, -⟩ := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 32 + 1 * (y 0).val = (y 0).val; omega
  | ⟨1, _⟩ => show win0_1.index t (1 : Fin 2) * 256 + 1 * (y 1).val = (y 1).val; omega

theorem bblk_eq (c : Dev nD) (t : Fin cfg0.N) : bblk m c t = barr m c := by
  obtain ⟨-, -, -, -, e0, e1, -⟩ := idx_facts t
  funext y
  show V m c main_arg2 (((cfg0.win 2).blk t).view.emb y) = V m c main_arg2 y
  refine congrArg (V m c main_arg2) ?_
  funext a; apply Fin.ext
  match a with
  | ⟨0, _⟩ => show win0_2.index t (0 : Fin 2) * 32 + 1 * (y 0).val = (y 0).val; omega
  | ⟨1, _⟩ => show win0_2.index t (1 : Fin 2) * 256 + 1 * (y 1).val = (y 1).val; omega

/-- What the tile at point `t` adds at (s, k, d), read through the blocks, is the specification's tile sum. -/
theorem tile_eq (c : Dev nD) (t : Fin cfg0.N) (s : Fin 2) (k : Fin 32) (d : Fin 256) :
    (∑ r : Fin 256, term s (fun d' => xblk m c t (ix2 r d')) (wblk m c t) (bblk m c t) k d)
      = tileSum s (xarr m c) (warr m c) (barr m c) k d t.val := by
  unfold tileSum
  rw [wblk_eq, bblk_eq]
  exact Finset.sum_congr rfl fun r _ => by rw [xblk_row]

/-- THE RUNNING SUM: after point `n` the accumulator holds, at (s, k, d), the sum over tiles 0 … n of the tile sums. -/
theorem acc_eq (c : Dev nD) : ∀ (n : ℕ) (h : n < cfg0.N) (s : Fin 2) (k : Fin 32) (d : Fin 256),
    (outsAt0 m c n h).2 (ix3 s k d) = accTiles s (xarr m c) (warr m c) (barr m c) k d n
  | 0, h, s, k, d => by
    rw [outsAt0_A m c ⟨0, h⟩ rfl (by dsimp only; omega)]
    dsimp only
    rw [accTiles_zero]
    refine (sout_A_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (xblk m c ⟨0, h⟩) (wblk m c ⟨0, h⟩) (bblk m c ⟨0, h⟩) s k d).trans ?_
    exact tile_eq m c ⟨0, h⟩ s k d
  | n + 1, h, s, k, d => by
    have hN : cfg0.N = 32 := N_0
    have h0 : ¬(⟨n + 1, h⟩ : Fin cfg0.N).val % 32 = 0 := by dsimp only; omega
    rw [accTiles_succ]
    by_cases h1 : (⟨n + 1, h⟩ : Fin cfg0.N).val % 32 = 31
    · rw [outsAt0_C m c ⟨n + 1, h⟩ h0 h1]
      dsimp only
      refine (sout_C_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (bblk m c ⟨n + 1, h⟩) (outsAt0 m c n (Nat.lt_of_succ_lt h)).2 s k d).trans ?_
      exact congrArg₂ (· + ·) (acc_eq c n (Nat.lt_of_succ_lt h) s k d) (tile_eq m c ⟨n + 1, h⟩ s k d)
    · rw [outsAt0_B m c ⟨n + 1, h⟩ h0 h1]
      dsimp only
      refine (sout_B_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (bblk m c ⟨n + 1, h⟩) (outsAt0 m c n (Nat.lt_of_succ_lt h)).2 s k d).trans ?_
      exact congrArg₂ (· + ·) (acc_eq c n (Nat.lt_of_succ_lt h) s k d) (tile_eq m c ⟨n + 1, h⟩ s k d)

/-- The result block `[2, 32, 256]`: the running sum after the last tile, times 2⁻¹³. -/
def outArr (c : Dev nD) : S2x32x256.Idx → EReal := fun y =>
  accTiles (y 0) (xarr m c) (warr m c) (barr m c) (y 1) (y 2) 31 * Ideal.ofBits .f32 0x39000000#32

/-- At the last point the output block holds it. -/
theorem out_last (c : Dev nD) (h : 31 < cfg0.N) (s : Fin 2) (k : Fin 32) (d : Fin 256) :
    (outsAt0 m c 31 h).1 (ix3 s k d) = outArr m c (ix3 s k d) := by
  have hN : cfg0.N = 32 := N_0
  rw [outsAt0_C m c ⟨31, h⟩ (by dsimp only; omega) rfl]
  dsimp only
  refine (out_C_apply c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) (ms0_3 ⟨31, h⟩) (hs0_3 ⟨31, h⟩) scM0_0 (Memref.isWhole_whole _) _ _ (xblk m c ⟨31, h⟩) (wblk m c ⟨31, h⟩) (bblk m c ⟨31, h⟩) (outsAt0 m c 30 (by omega)).2 s k d).trans ?_
  refine congrArg (· * Ideal.ofBits .f32 0x39000000#32) ?_
  exact (congrArg₂ (· + ·) (acc_eq m c 30 (by omega) s k d) (tile_eq m c ⟨31, h⟩ s k d)).trans
    (accTiles_succ s (xarr m c) (warr m c) (barr m c) k d 30).symm

/-- The one write-back, at the last point, writes the result block: the block is the whole array. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 32 := N_0
  have h31 : t.val % 32 = 31 := (flush0_3 t).mp hf
  obtain ⟨n, hn⟩ := t
  have hn31 : n = 31 := by dsimp only at h31; omega
  subst hn31
  obtain ⟨-, -, -, -, -, -, e0, e1, e2⟩ := idx_facts ⟨31, hn⟩
  show (cfg0.win 3).cut (grid0.coords ⟨31, hn⟩) ((dats m 0 c).after 3 ⟨31, hn⟩) = _
  rw [after0_3]
  refine funext fun (y : S2x32x256.Idx) => ?_
  show (outsAt0 m c 31 hn).1 y = outArr m c (((cfg0.win 3).blk ⟨31, hn⟩).view.emb y)
  have he : ((cfg0.win 3).blk ⟨31, hn⟩).view.emb y = y := by
    funext a; apply Fin.ext
    match a with
    | ⟨0, _⟩ => show win0_3.index ⟨31, hn⟩ (0 : Fin 3) * 2 + 1 * (y 0).val = (y 0).val; omega
    | ⟨1, _⟩ => show win0_3.index ⟨31, hn⟩ (1 : Fin 3) * 32 + 1 * (y 1).val = (y 1).val; omega
    | ⟨2, _⟩ => show win0_3.index ⟨31, hn⟩ (2 : Fin 3) * 256 + 1 * (y 2).val = (y 2).val; omega
  rw [he, eq_ix3 y]
  exact out_last m c hn (y 0) (y 1) (y 2)

/-- Every entry of the result array is in the last point's block. -/
theorem covered (c : Dev nD) (i : S2x32x256.Idx) :
    ∃ t : Fin cfg0.N, (cfg0.win 3).flush t = true ∧ i ∈ ((cfg0.win 3).blk t).view.set := by
  have hN : cfg0.N = 32 := N_0
  have h31 : 31 < cfg0.N := by omega
  obtain ⟨-, -, -, -, -, -, e0, e1, e2⟩ := idx_facts ⟨31, h31⟩
  refine ⟨⟨31, h31⟩, (flush0_3 _).mpr rfl, ?_⟩
  show i ∈ ((View.whole main_v0).slice (win0_3.rect ⟨31, h31⟩)).set
  rw [View.set_slice_whole, Rect.mem_set_unit]
  intro a
  match a with
  | ⟨0, _⟩ => show win0_3.index ⟨31, h31⟩ (0 : Fin 3) * 2 ≤ (i 0).val ∧ (i 0).val < win0_3.index ⟨31, h31⟩ (0 : Fin 3) * 2 + 2; have h0 : (i 0).val < 2 := (i 0).isLt; omega
  | ⟨1, _⟩ => show win0_3.index ⟨31, h31⟩ (1 : Fin 3) * 32 ≤ (i 1).val ∧ (i 1).val < win0_3.index ⟨31, h31⟩ (1 : Fin 3) * 32 + 32; have h1 : (i 1).val < 32 := (i 1).isLt; omega
  | ⟨2, _⟩ => show win0_3.index ⟨31, h31⟩ (2 : Fin 3) * 256 ≤ (i 2).val ∧ (i 2).val < win0_3.index ⟨31, h31⟩ (2 : Fin 3) * 256 + 256; have h2 : (i 2).val < 256 := (i 2).isLt; omega

/-- So the kernel's result array ends holding the result block. -/
theorem final_out (c : Dev nD) : (dats m 0 c).arrAt 3 cfg0.N = outArr m c :=
  (dats m 0 c).arrAt_eq_of_cover 3 (outArr m c) (flushed_eq m c) (covered c)

/-- The reshape `[2, 32, 256] → [16384]` after the region: flat index q reads entry (q / 8192, q % 8192 / 256, q % 256),
    which is the specification's result at q. -/
theorem tail_eq (c : Dev nD) :
    Pipeline.afterTail₀ cfgs (dats m) 0 (V0 m) [hostOps1] c main_v1
      = Cert.Fisher.result (xarr m c) (warr m c) (barr m c) := by
  unfold Pipeline.afterTail₀
  show StableHlo.after hostOps1 _ (Proc.devRef .tc main_v1) = _
  after_results
  have e := (Pipeline.withArrays_arr spec0 launch0.win.arr_inj c (V0 m c) (fun w => (dats m 0 c).arrAt w (cfgs 0).N) 3).trans (final_out m c)
  funext j
  obtain ⟨q, rfl⟩ : ∃ q : Fin 16384, j = ix1 q := ⟨j 0, eq_ix1 j⟩
  show shapeCast S16384 (Pipeline.withArrays spec0 c (V0 m c) (fun w => (dats m 0 c).arrAt w (cfgs 0).N) (Proc.devRef .tc main_v0)) shapeCasts_S2x32x256_S16384 (ix1 q) = resultAt (xarr m c) (warr m c) (barr m c) q
  rw [e]
  have hq := q.isLt
  refine (shapeCast_apply (outArr m c) shapeCasts_S2x32x256_S16384 (ix1 q)
    (ix3 (⟨q.val / 8192, by omega⟩ : Fin 2) (⟨q.val % 8192 / 256, by omega⟩ : Fin 32) (⟨q.val % 256, by omega⟩ : Fin 256)) ?_).trans rfl
  rw [Shape.rowMajor_val_three, Shape.rowMajor_val_one]
  show (q.val / 8192 * 32 + q.val % 8192 / 256) * 256 + q.val % 256 = q.val
  omega

/-- THE KERNEL'S RUN, READ: the result at the specification's function of the argument arrays, the arguments unchanged. -/
theorem run : θ_run defs (onTc (τ := τ) (main (F := Ideal))) ⟨m, fun _ => 0, ρ⟩ fun r => ∀ c : Dev nD,
      r.2.mem ((c.tc : Thread nD τ).loc main_v1)
        = Cert.Fisher.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc
end
-- ==== Proof.lean ====
/-
  The Fisher layer: a Gaussian-mixture score mixed by a softmax over 32 components and averaged over 8192 rows.

  For a data row x_n and parameters w, b : [32, 256] let y1 = w · (x_n + b), y2 = y1², y4 = -½ Σ_d y2,
  gam = softmax_k y4, and let the two summands be gam · ((y2 - 1) · c) (c the f32 nearest 1/√2) and gam · y1.
  The result [2·32·256] is the mean over the 8192 rows of the two summands, the sigma part first.

  The kernel visits the rows in 32 tiles of 256, adds each tile's sums into a running sum that lives across the
  grid points (zeroed at the first point), and at the last point writes the running sum times 2⁻¹³.  The reference
  forms the [8192, 16384] array of all summands, sums over the rows from zero and divides by 8192.  On the extended
  reals the two agree at every input: a finite sum may be regrouped into tiles (addition is commutative and
  associative), and dividing by the real 8192 is multiplying by 2⁻¹³ (Proof/Spec.lean).  Every other operation is
  the same on both sides, literal for literal, row by row: the softmax of a row depends on that row alone, which is
  why a tile of rows computes what the whole array computes on those rows.

  Proof/Spec.lean         the mathematics and the two laws
  Proof/KernelPay.lean    the kernel body's values at an index
  Proof/KernelPieces.lean what one grid point leaves in the running sum and in the output block
  Proof/KernelAcc.lean    the running sum across the grid, the result array, the reshape after the region, the run
  Proof/RefValue.lean     the reference's stages at an index
  The ideal pass rewrote nothing, so the idealization claim is trivially true.
-/
import proofs.«142013_j30846455119907_1_alg».proof.Defs
import proofs.«142013_j30846455119907_1_alg».proof.Proof.Gen.Kernel
import proofs.«142013_j30846455119907_1_alg».proof.Proof.Gen.Kernel.Skeleton
import proofs.«142013_j30846455119907_1_alg».proof.Proof.Gen.Kernel.Launch
import proofs.«142013_j30846455119907_1_alg».proof.Proof.Gen.Kernel.Points
import proofs.«142013_j30846455119907_1_alg».proof.Proof.Gen.Kernel.Frame
import proofs.«142013_j30846455119907_1_alg».proof.Proof.Gen.KernelIdeal
import proofs.«142013_j30846455119907_1_alg».proof.Proof.Gen.KernelIdeal.Skeleton
import proofs.«142013_j30846455119907_1_alg».proof.Proof.Gen.KernelIdeal.Launch
import proofs.«142013_j30846455119907_1_alg».proof.Proof.Gen.KernelIdeal.Points
import proofs.«142013_j30846455119907_1_alg».proof.Proof.Gen.KernelIdeal.Frame
import proofs.«142013_j30846455119907_1_alg».proof.Proof.Gen.ReferenceIdeal
import proofs.«142013_j30846455119907_1_alg».proof.Proof.Gen.Pre_finite_inputs
import proofs.«142013_j30846455119907_1_alg».proof.Proof.RefRun
import proofs.«142013_j30846455119907_1_alg».proof.Proof.RefRead
import proofs.«142013_j30846455119907_1_alg».proof.Proof.RefValue
import proofs.«142013_j30846455119907_1_alg».proof.Proof.KernelAcc
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at ONE function of the argument arrays (`Cert.Fisher.result`), and the arguments agree. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
